-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x32 .f32) (main_arg3 : FVec F S32 .f32) (main_arg4 : FVec F S32x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S5000x128 : Shape := ⟨2, ![5000, 128]⟩
abbrev S5000x32 : Shape := ⟨2, ![5000, 32]⟩
abbrev S1700000x32 : Shape := ⟨2, ![1700000, 32]⟩
abbrev S1x32 : Shape := ⟨2, ![1, 32]⟩
abbrev S100000x16 : Shape := ⟨2, ![100000, 16]⟩
abbrev S5000x16 : Shape := ⟨2, ![5000, 16]⟩
abbrev S1700000x16 : Shape := ⟨2, ![1700000, 16]⟩
abbrev S1x16 : Shape := ⟨2, ![1, 16]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x32, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x32, .f32⟩
  | .hbm, ⟨56, _⟩ => ⟨S1700000x1, .f32⟩
  | .hbm, ⟨57, _⟩ => ⟨S1700000x32, .f32⟩
  | .hbm, ⟨58, _⟩ => ⟨S1700000x32, .f32⟩
  | .hbm, ⟨59, _⟩ => ⟨S_, .f32⟩
  | .hbm, ⟨60, _⟩ => ⟨S100000x32, .f32⟩
  | .hbm, ⟨61, _⟩ => ⟨S1700000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x16, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x16, .f32⟩
  | .hbm, ⟨79, _⟩ => ⟨S1700000x1, .f32⟩
  | .hbm, ⟨80, _⟩ => ⟨S1700000x16, .f32⟩
  | .hbm, ⟨81, _⟩ => ⟨S1700000x16, .f32⟩
  | .hbm, ⟨82, _⟩ => ⟨S_, .f32⟩
  | .hbm, ⟨83, _⟩ => ⟨S100000x16, .f32⟩
  | .hbm, ⟨84, _⟩ => ⟨S1700000x1, .i32⟩
  | .hbm, ⟨85, _⟩ => ⟨S100000x16, .f32⟩
  | .hbm, ⟨86, _⟩ => ⟨S1x16, .f32⟩
  | .hbm, ⟨87, _⟩ => ⟨S100000x16, .f32⟩
  | .hbm, ⟨88, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S32x16, .f32⟩
  | .local _ .vmem, ⟨8, _⟩ => ⟨S5000x16, .f32⟩
  | .local _ .vmem, ⟨9, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S5000x32_S5000x32 : S5000x32.ShapeCasts S5000x32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x32_S5000x32_1_0_0_1_n_n_wf : DotDims.WF S5000x128 S128x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x16_S5000x16_1_0_0_1_n_n_wf : DotDims.WF S5000x32 S32x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1700000x32 : Shape := ⟨2, ![1700000, 32]⟩
abbrev S1x32 : Shape := ⟨2, ![1, 32]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x32, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x32, .f32⟩
  | .hbm, ⟨56, _⟩ => ⟨S1700000x1, .f32⟩
  | .hbm, ⟨57, _⟩ => ⟨S1700000x32, .f32⟩
  | .hbm, ⟨58, _⟩ => ⟨S1700000x32, .f32⟩
  | .hbm, ⟨59, _⟩ => ⟨S_, .f32⟩
  | .hbm, ⟨60, _⟩ => ⟨S100000x32, .f32⟩
  | .hbm, ⟨61, _⟩ => ⟨S1700000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x16, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x16, .f32⟩
  | .hbm, ⟨79, _⟩ => ⟨S1700000x1, .f32⟩
  | .hbm, ⟨80, _⟩ => ⟨S1700000x16, .f32⟩
  | .hbm, ⟨81, _⟩ => ⟨S1700000x16, .f32⟩
  | .hbm, ⟨82, _⟩ => ⟨S_, .f32⟩
  | .hbm, ⟨83, _⟩ => ⟨S100000x16, .f32⟩
  | .hbm, ⟨84, _⟩ => ⟨S1700000x1, .i32⟩
  | .hbm, ⟨85, _⟩ => ⟨S100000x16, .f32⟩
  | .hbm, ⟨86, _⟩ => ⟨S1x16, .f32⟩
  | .hbm, ⟨87, _⟩ => ⟨S100000x16, .f32⟩
  | .hbm, ⟨88, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x32_S100000x32_1_0_0_1_n_n_wf : DotDims.WF S100000x128 S128x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.HostStages.lean ====
/-
  The host stretches of the kernel program, read at any float family and from any contents.
  Around its two pallas_calls the kernel program runs the same host operations as the reference, in the same order.
  Each stretch is read here on its own: started from ANY buffer contents `w`, and given that the buffers the stretch
  reads hold the reference's stages of some arguments, the buffer it ends in holds the reference's next stage of
  those arguments; the buffers it does not write keep what they held. Nothing here depends on what a float is, so
  it is stated at an arbitrary float family: the two sides are then the same operations on the same operands,
  letter for letter.
-/
import proofs.«111960_j74251394613508_1_alg».proof.Proof.Gen.KernelIdeal.Launch
import proofs.«111960_j74251394613508_1_alg».proof.Proof.RefRead
import Idealize.ShloMosaic.Lib.StableHlo.Run

set_option maxRecDepth 16384

noncomputable section

namespace Cert.KernelIdeal.Stages

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]
variable (w : Valuation τ sig (Elt F))

/-! ## The first stretch: index vectors, the degree, its positivity test and inverse square root -/

section First
variable (x1 : (⟨S2x1600000, .i32⟩ : BufTy).Contents (Elt F)) (h1 : w (Proc.devRef .tc main_arg1) = x1)
include h1

theorem first_src : StableHlo.after hostOps0 w (Proc.devRef .tc main_v3) = val_main_v3 (F := F) x1 := by
  dsimp only [hostOps0]; after_results; rw [h1]; rfl
theorem first_dst : StableHlo.after hostOps0 w (Proc.devRef .tc main_v6) = val_main_v6 (F := F) x1 := by
  dsimp only [hostOps0]; after_results; rw [h1]; rfl
theorem first_positive : StableHlo.after hostOps0 w (Proc.devRef .tc main_v12) = val_main_v12 (F := F) x1 := by
  dsimp only [hostOps0]; after_results; rw [h1]; rfl
theorem first_rsqrt : StableHlo.after hostOps0 w (Proc.devRef .tc main_v13) = val_main_v13 (F := F) x1 := by
  dsimp only [hostOps0]; after_results; rw [h1]; rfl
end First

theorem first_zero : StableHlo.after hostOps0 w (Proc.devRef .tc main_cst_2) = val_main_cst_2 (F := F) := by
  dsimp only [hostOps0]; after_results; rfl

/-! ## The select function: dinv -/

theorem second_dinv (x1 : (⟨S2x1600000, .i32⟩ : BufTy).Contents (Elt F))
    (hp : w (Proc.devRef .tc main_v12) = val_main_v12 (F := F) x1) (hr : w (Proc.devRef .tc main_v13) = val_main_v13 (F := F) x1)
    (hz : w (Proc.devRef .tc main_cst_2) = val_main_cst_2 (F := F)) :
    StableHlo.after hostOps0_1 w (Proc.devRef .tc main_v14) = val_main_v14 (F := F) x1 := by
  dsimp only [hostOps0_1]; after_results; rw [hp, hr, hz]; rfl

theorem second_keep_src : StableHlo.after hostOps0_1 w (Proc.devRef .tc main_v3) = w (Proc.devRef .tc main_v3) := by
  dsimp only [hostOps0_1]; after_results
theorem second_keep_dst : StableHlo.after hostOps0_1 w (Proc.devRef .tc main_v6) = w (Proc.devRef .tc main_v6) := by
  dsimp only [hostOps0_1]; after_results

/-! ## The per-edge weight dinv[src] · dinv[dst] -/

theorem third_weight (x1 : (⟨S2x1600000, .i32⟩ : BufTy).Contents (Elt F))
    (hd : w (Proc.devRef .tc main_v14) = val_main_v14 (F := F) x1) (hs : w (Proc.devRef .tc main_v3) = val_main_v3 (F := F) x1)
    (ht : w (Proc.devRef .tc main_v6) = val_main_v6 (F := F) x1) :
    StableHlo.after hostOps0_2 w (Proc.devRef .tc main_v29) = val_main_v29 (F := F) x1 := by
  dsimp only [hostOps0_2]; after_results_simp; rw [hd, hs, ht]; rfl

theorem third_keep_src : StableHlo.after hostOps0_2 w (Proc.devRef .tc main_v3) = w (Proc.devRef .tc main_v3) := by
  dsimp only [hostOps0_2]; after_results
theorem third_keep_dst : StableHlo.after hostOps0_2 w (Proc.devRef .tc main_v6) = w (Proc.devRef .tc main_v6) := by
  dsimp only [hostOps0_2]; after_results

/-! ## No operation before the first call writes an argument -/

theorem before_keep_arg0 :
    StableHlo.after hostOps0_2 (StableHlo.after hostOps0_1 (StableHlo.after hostOps0 w)) (Proc.devRef .tc main_arg0) = w (Proc.devRef .tc main_arg0) := by
  dsimp only [hostOps0, hostOps0_1, hostOps0_2]; after_results
theorem before_keep_arg2 :
    StableHlo.after hostOps0_2 (StableHlo.after hostOps0_1 (StableHlo.after hostOps0 w)) (Proc.devRef .tc main_arg2) = w (Proc.devRef .tc main_arg2) := by
  dsimp only [hostOps0, hostOps0_1, hostOps0_2]; after_results
theorem before_keep_arg3 :
    StableHlo.after hostOps0_2 (StableHlo.after hostOps0_1 (StableHlo.after hostOps0 w)) (Proc.devRef .tc main_arg3) = w (Proc.devRef .tc main_arg3) := by
  dsimp only [hostOps0, hostOps0_1, hostOps0_2]; after_results
theorem before_keep_arg4 :
    StableHlo.after hostOps0_2 (StableHlo.after hostOps0_1 (StableHlo.after hostOps0 w)) (Proc.devRef .tc main_arg4) = w (Proc.devRef .tc main_arg4) := by
  dsimp only [hostOps0, hostOps0_1, hostOps0_2]; after_results
theorem before_keep_arg5 :
    StableHlo.after hostOps0_2 (StableHlo.after hostOps0_1 (StableHlo.after hostOps0 w)) (Proc.devRef .tc main_arg5) = w (Proc.devRef .tc main_arg5) := by
  dsimp only [hostOps0, hostOps0_1, hostOps0_2]; after_results

/-! ## Between the calls: one graph convolution's aggregation, bias and clamp -/

theorem middle_hidden (x0 : (⟨S100000x128, .f32⟩ : BufTy).Contents (Elt F)) (x1 : (⟨S2x1600000, .i32⟩ : BufTy).Contents (Elt F)) (x2 : (⟨S128x32, .f32⟩ : BufTy).Contents (Elt F)) (x3 : (⟨S32, .f32⟩ : BufTy).Contents (Elt F))
    (hprod : w (Proc.devRef .tc main_v30) = val_main_v30 (F := F) x0 x2)
    (hs : w (Proc.devRef .tc main_v3) = val_main_v3 (F := F) x1) (ht : w (Proc.devRef .tc main_v6) = val_main_v6 (F := F) x1)
    (hw : w (Proc.devRef .tc main_v29) = val_main_v29 (F := F) x1) (hb : w (Proc.devRef .tc main_arg3) = x3) :
    StableHlo.after hostOps1_1 (StableHlo.after hostOps1 w) (Proc.devRef .tc main_v47) = val_main_v47 (F := F) x0 x1 x2 x3 := by
  dsimp only [hostOps1, hostOps1_1]; after_results_simp; rw [hprod, hs, ht, hw, hb]; rfl

theorem middle_keep_src :
    StableHlo.after hostOps1_1 (StableHlo.after hostOps1 w) (Proc.devRef .tc main_v3) = w (Proc.devRef .tc main_v3) := by
  dsimp only [hostOps1, hostOps1_1]; after_results
theorem middle_keep_dst :
    StableHlo.after hostOps1_1 (StableHlo.after hostOps1 w) (Proc.devRef .tc main_v6) = w (Proc.devRef .tc main_v6) := by
  dsimp only [hostOps1, hostOps1_1]; after_results
theorem middle_keep_weight :
    StableHlo.after hostOps1_1 (StableHlo.after hostOps1 w) (Proc.devRef .tc main_v29) = w (Proc.devRef .tc main_v29) := by
  dsimp only [hostOps1, hostOps1_1]; after_results
theorem middle_keep_arg4 :
    StableHlo.after hostOps1_1 (StableHlo.after hostOps1 w) (Proc.devRef .tc main_arg4) = w (Proc.devRef .tc main_arg4) := by
  dsimp only [hostOps1, hostOps1_1]; after_results
theorem middle_keep_arg5 :
    StableHlo.after hostOps1_1 (StableHlo.after hostOps1 w) (Proc.devRef .tc main_arg5) = w (Proc.devRef .tc main_arg5) := by
  dsimp only [hostOps1, hostOps1_1]; after_results

/-! ## After the second call: the second aggregation and bias -/

theorem tail_result (x0 : (⟨S100000x128, .f32⟩ : BufTy).Contents (Elt F)) (x1 : (⟨S2x1600000, .i32⟩ : BufTy).Contents (Elt F)) (x2 : (⟨S128x32, .f32⟩ : BufTy).Contents (Elt F)) (x3 : (⟨S32, .f32⟩ : BufTy).Contents (Elt F))
    (x4 : (⟨S32x16, .f32⟩ : BufTy).Contents (Elt F)) (x5 : (⟨S16, .f32⟩ : BufTy).Contents (Elt F))
    (hprod : w (Proc.devRef .tc main_v48) = val_main_v48 (F := F) x0 x1 x2 x3 x4)
    (hs : w (Proc.devRef .tc main_v3) = val_main_v3 (F := F) x1) (ht : w (Proc.devRef .tc main_v6) = val_main_v6 (F := F) x1)
    (hw : w (Proc.devRef .tc main_v29) = val_main_v29 (F := F) x1) (hb : w (Proc.devRef .tc main_arg5) = x5) :
    StableHlo.after hostOps2 w (Proc.devRef .tc main_v64) = val_main_v64 (F := F) x0 x1 x2 x3 x4 x5 := by
  dsimp only [hostOps2]; after_results_simp; rw [hprod, hs, ht, hw, hb]; rfl

end Cert.KernelIdeal.Stages

end
-- ==== Proof.Product0.lean ====
/-
  The body of pallas_call 0 multiplies its 5000×128 block of the left operand by the whole 128×32 right operand
  on the matrix unit, into a zero accumulator; both operands are first narrowed to bf16, which at the ideal
  values changes nothing. So entry (r, c) of what the body stores is the plain sum over the 128 contracted
  coordinates k of  left (r, k) · right (k, c)  on the extended reals.
-/
import proofs.«111960_j74251394613508_1_alg».proof.Proof.Gen.KernelIdeal.Skeleton
import Idealize.ShloMosaic.PureOps.Ideal.Laws
import Idealize.ShloMosaic.Lib.ValueIdx

noncomputable section

namespace Cert.KernelIdeal.Product0

open Cert.KernelIdeal Cert.KernelIdeal.Gen Idealize.ShloMosaic Idealize.ShloMosaic.TcCoe Idealize.SL.Sem

/-- The left operand's row coordinate at output entry `i` is `i`'s row. -/
theorem lhs_row (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
/-- The left operand's column coordinate is the contracted coordinate. -/
theorem lhs_col (i : S5000x32.Idx) (q : dot_S5000x128_S128x32_S5000x32_1_0_0_1_n_n.contr.Idx) :
    (dot_S5000x128_S128x32_S5000x32_1_0_0_1_n_n.lhsIdx i q 1).val = (q ⟨0, by decide⟩).val :=
  dot_S5000x128_S128x32_S5000x32_1_0_0_1_n_n.lhsIdx_val_of_single rfl i q
/-- The right operand's row coordinate is the contracted coordinate. -/
theorem rhs_row (i : S5000x32.Idx) (q : dot_S5000x128_S128x32_S5000x32_1_0_0_1_n_n.contr.Idx) :
    (dot_S5000x128_S128x32_S5000x32_1_0_0_1_n_n.rhsIdx i q 0).val = (q ⟨0, by decide⟩).val :=
  dot_S5000x128_S128x32_S5000x32_1_0_0_1_n_n.rhsIdx_val_of_single rfl i q
/-- The right operand's column coordinate at output entry `i` is `i`'s column. -/
theorem rhs_col (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- Entry (row of `i`, k) of the left block. -/
abbrev leftAt (i : S5000x32.Idx) (k : Fin 128) : S5000x128.Idx := fun a => match a with
  | ⟨0, _⟩ => ⟨(i 0).val, (i 0).isLt⟩
  | ⟨1, _⟩ => ⟨k.val, k.isLt⟩
/-- Entry (k, column of `i`) of the right operand. -/
abbrev rightAt (i : S5000x32.Idx) (k : Fin 128) : S128x32.Idx := fun a => match a with
  | ⟨0, _⟩ => ⟨k.val, k.isLt⟩
  | ⟨1, _⟩ => ⟨(i 1).val, (i 1).isLt⟩

/-- What the body stores, at an entry: the sum over the contracted coordinate of left · right. -/
theorem stored_apply (x : Vec Ideal S5000x128 .f32) (w : Vec Ideal S128x32 .f32) (i : S5000x32.Idx) :
    k0_pay1 (F := Ideal) x w i = ∑ k : Fin 128, x (leftAt i k) * w (rightAt i k) := by
  unfold k0_pay1
  show FloatOps.matmul dot_S5000x128_S128x32_S5000x32_1_0_0_1_n_n none _ _ (constant S5000x32 .f32 0x00000000#32) i = _
  rw [Ideal.matmul_constant_zero_apply, ← Equiv.sum_comp (ValueIdx.contrEquiv1 dot_S5000x128_S128x32_S5000x32_1_0_0_1_n_n 128 rfl rfl).symm]
  refine Finset.sum_congr rfl fun k _ => ?_
  have hk := ValueIdx.contrEquiv1_symm_val dot_S5000x128_S128x32_S5000x32_1_0_0_1_n_n 128 rfl rfl k
  have el : dot_S5000x128_S128x32_S5000x32_1_0_0_1_n_n.lhsIdx i ((ValueIdx.contrEquiv1 dot_S5000x128_S128x32_S5000x32_1_0_0_1_n_n 128 rfl rfl).symm k) = leftAt i k := funext fun a => Fin.ext (by
    match a with
    | ⟨0, _⟩ => exact lhs_row _ _
    | ⟨1, _⟩ => exact (lhs_col _ _).trans hk)
  have er : dot_S5000x128_S128x32_S5000x32_1_0_0_1_n_n.rhsIdx i ((ValueIdx.contrEquiv1 dot_S5000x128_S128x32_S5000x32_1_0_0_1_n_n 128 rfl rfl).symm k) = rightAt i k := funext fun a => Fin.ext (by
    match a with
    | ⟨0, _⟩ => exact (rhs_row _ _).trans hk
    | ⟨1, _⟩ => exact rhs_col _ _)
  show x (dot_S5000x128_S128x32_S5000x32_1_0_0_1_n_n.lhsIdx i _) * w (dot_S5000x128_S128x32_S5000x32_1_0_0_1_n_n.rhsIdx i _) = _
  rw [el, er]

end Cert.KernelIdeal.Product0

end
-- ==== Proof.Region0.lean ====
/-
  The output array of pallas_call 0, as one function of the arrays the call finds at its entry.
  The call walks 20 grid points; point t loads rows 5000·t … 5000·t + 4999 of the left operand (all 128 columns)
  and the whole 128×32 right operand, and writes back rows 5000·t … 5000·t + 4999 of the output. What it writes at
  entry (r, c) of its block is the sum over k of left (5000·t + r, k) · right (k, c): that is entry (5000·t + r, c) of the
  plain matrix product of the two whole arrays, which is what the reference's dot_general computes. The 20 row
  blocks tile the 100000 rows, so after the call the output array IS that product.
-/
import proofs.«111960_j74251394613508_1_alg».proof.Proof.Gen.KernelIdeal.Frame
import proofs.«111960_j74251394613508_1_alg».proof.Proof.Product0
import proofs.«111960_j74251394613508_1_alg».proof.Proof.RefRead
import Idealize.ShloMosaic.Lib.Pipeline.Value

set_option maxRecDepth 16384

noncomputable section

namespace Cert.KernelIdeal.Region0

open Cert.KernelIdeal Cert.KernelIdeal.Gen Cert.ReferenceIdeal.ReadP
open Idealize.ShloMosaic Idealize.ShloMosaic.TcCoe Idealize.SL.Sem
open Idealize.ShloMosaic.Pipeline (Dat Cfg Window)

-- the arrays as the call finds them: any contents
variable (V : (c : Dev nD) → (b : Ref sig .tc) → Buf (Elt Ideal) ((c : Thread nD τ).loc b))

/-- The two operands as the call finds them, and their blocks at point t, each at its literal type. -/
abbrev left (c : Dev nD) : Vec Ideal S100000x128 .f32 := V c main_arg0
abbrev right (c : Dev nD) : Vec Ideal S128x32 .f32 := V c main_arg2
abbrev leftBlock (c : Dev nD) (t : Fin cfg0.N) : Vec Ideal S5000x128 .f32 := iblk0 V c 0 t
abbrev rightBlock (c : Dev nD) (t : Fin cfg0.N) : Vec Ideal S128x32 .f32 := iblk0 V c 1 t

/-- A block's entry is the array's entry at the block's place. -/
theorem leftBlock_apply (c : Dev nD) (t : Fin cfg0.N) (j : S5000x128.Idx) :
    leftBlock V c t j = left V c (((cfg0.win 0).blk t).view.emb j) := rfl
theorem rightBlock_apply (c : Dev nD) (t : Fin cfg0.N) (j : S128x32.Idx) :
    rightBlock V c t j = right V c (((cfg0.win 1).blk t).view.emb j) := rfl

theorem origin : (![0, 0] : Fin 2 → Nat) = fun _ => 0 := funext fun a => by fin_cases a <;> rfl

/-- Where each window's block sits at point t: the left operand's and the output's at row block t, column block 0;
    the right operand's always at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is its block of the product of the two whole arrays. -/
theorem written_back (c : Dev nD) (t : Fin cfg0.N) :
    (dat0 V c).flushed 2 t
      = ((cfg0.win 2).blk t).view.read (Elt Ideal) (val_main_v30 (F := Ideal) (left V c) (right V c)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x32) origin]
  obtain ⟨e0, e1, e2, e3, e4, e5⟩ := block_indices t
  funext y
  show k0_pay1 (F := Ideal) (leftBlock V c t) (rightBlock V c t) y
      = val_main_v30 (F := Ideal) (left V c) (right V c) (((cfg0.win 2).blk t).view.emb y)
  rw [Product0.stored_apply, val_main_v30_apply]
  refine Finset.sum_congr rfl fun k _ => ?_
  rw [leftBlock_apply, rightBlock_apply]
  have hl : ((cfg0.win 0).blk t).view.emb (Product0.leftAt y k) = lidx_main_v30 (((cfg0.win 2).blk t).view.emb y) k := by
    funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  have hr : ((cfg0.win 1).blk t).view.emb (Product0.rightAt y k) = ridx_main_v30 (((cfg0.win 2).blk t).view.emb y) k := by
    funext a; apply Fin.ext
    match a with
    | ⟨0, _⟩ => show win0_1.index t (0 : Fin 2) * 128 + 1 * k.val = k.val; omega
    | ⟨1, _⟩ => show win0_1.index t (1 : Fin 2) * 32 + 1 * (y 1).val = win0_2.index t (1 : Fin 2) * 32 + 1 * (y 1).val; omega
  rw [hl, hr]

/-- An entry of the output array lies in point t's block iff each coordinate is in the block's range on its axis. -/
theorem mem_block (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v30).slice (win0_2.rect t)).set ↔ _
  rw [View.set_slice_whole, Rect.mem_set_unit]
  exact Iff.rfl

/-- Every entry of the output array is in the block of the point its row falls to, row / 5000. -/
theorem covered (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5⟩ := block_indices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- After the call the output array is the product of the two arrays the call found. -/
theorem output_array (c : Dev nD) :
    (dat0 V c).arrAt 2 cfg0.N = val_main_v30 (F := Ideal) (left V c) (right V c) :=
  (dat0 V c).arrAt_eq_of_cover 2 _ (fun t _ => written_back V c t) covered

end Cert.KernelIdeal.Region0

end
-- ==== Proof.Product1.lean ====
/-
  The body of the second pallas_call: its 5000×32 block of the hidden activations, cast to its own shape (which
  changes nothing), and the whole 32×16 weight matrix are narrowed to bf16 (the identity at the ideal values) and
  multiplied on the matrix unit into a zero accumulator. So entry (r, c) of what the body stores is the plain sum
  over the 32 contracted coordinates k of  h (r, k) · W2 (k, c)  on the extended reals.
-/
import proofs.«111960_j74251394613508_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Product1

open Cert.KernelIdeal Cert.KernelIdeal.Gen Idealize.ShloMosaic Idealize.ShloMosaic.TcCoe Idealize.SL.Sem

/-- The hidden block's row coordinate at output entry `i` is `i`'s row. -/
theorem lhs_row (i : S5000x16.Idx) (q : dot_S5000x32_S32x16_S5000x16_1_0_0_1_n_n.contr.Idx) :
    (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
/-- The hidden block's column coordinate is the contracted coordinate. -/
theorem lhs_col (i : S5000x16.Idx) (q : dot_S5000x32_S32x16_S5000x16_1_0_0_1_n_n.contr.Idx) :
    (dot_S5000x32_S32x16_S5000x16_1_0_0_1_n_n.lhsIdx i q 1).val = (q ⟨0, by decide⟩).val :=
  dot_S5000x32_S32x16_S5000x16_1_0_0_1_n_n.lhsIdx_val_of_single rfl i q
/-- The weight's row coordinate is the contracted coordinate. -/
theorem rhs_row (i : S5000x16.Idx) (q : dot_S5000x32_S32x16_S5000x16_1_0_0_1_n_n.contr.Idx) :
    (dot_S5000x32_S32x16_S5000x16_1_0_0_1_n_n.rhsIdx i q 0).val = (q ⟨0, by decide⟩).val :=
  dot_S5000x32_S32x16_S5000x16_1_0_0_1_n_n.rhsIdx_val_of_single rfl i q
/-- The weight's column coordinate at output entry `i` is `i`'s column. -/
theorem rhs_col (i : S5000x16.Idx) (q : dot_S5000x32_S32x16_S5000x16_1_0_0_1_n_n.contr.Idx) :
    (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-- Entry (row of `i`, k) of the hidden block. -/
abbrev leftAt (i : S5000x16.Idx) (k : Fin 32) : S5000x32.Idx := fun a => match a with
  | ⟨0, _⟩ => ⟨(i 0).val, (i 0).isLt⟩
  | ⟨1, _⟩ => ⟨k.val, k.isLt⟩
/-- Entry (k, column of `i`) of the weight matrix. -/
abbrev rightAt (i : S5000x16.Idx) (k : Fin 32) : S32x16.Idx := fun a => match a with
  | ⟨0, _⟩ => ⟨k.val, k.isLt⟩
  | ⟨1, _⟩ => ⟨(i 1).val, (i 1).isLt⟩

/-- What the body stores, at an entry: the sum over the contracted coordinate of hidden · weight. -/
theorem stored_apply (h : Vec Ideal S5000x32 .f32) (w : Vec Ideal S32x16 .f32) (i : S5000x16.Idx) :
    k1_pay1 (F := Ideal) h w i = ∑ k : Fin 32, h (leftAt i k) * w (rightAt i k) := by
  unfold k1_pay1
  simp only [shapeCast_self]
  show FloatOps.matmul dot_S5000x32_S32x16_S5000x16_1_0_0_1_n_n none _ _ (constant S5000x16 .f32 0x00000000#32) i = _
  rw [Ideal.matmul_constant_zero_apply, ← Equiv.sum_comp (ValueIdx.contrEquiv1 dot_S5000x32_S32x16_S5000x16_1_0_0_1_n_n 32 rfl rfl).symm]
  refine Finset.sum_congr rfl fun k _ => ?_
  have hk := ValueIdx.contrEquiv1_symm_val dot_S5000x32_S32x16_S5000x16_1_0_0_1_n_n 32 rfl rfl k
  have el : dot_S5000x32_S32x16_S5000x16_1_0_0_1_n_n.lhsIdx i ((ValueIdx.contrEquiv1 dot_S5000x32_S32x16_S5000x16_1_0_0_1_n_n 32 rfl rfl).symm k) = leftAt i k := funext fun a => Fin.ext (by
    match a with
    | ⟨0, _⟩ => exact lhs_row _ _
    | ⟨1, _⟩ => exact (lhs_col _ _).trans hk)
  have er : dot_S5000x32_S32x16_S5000x16_1_0_0_1_n_n.rhsIdx i ((ValueIdx.contrEquiv1 dot_S5000x32_S32x16_S5000x16_1_0_0_1_n_n 32 rfl rfl).symm k) = rightAt i k := funext fun a => Fin.ext (by
    match a with
    | ⟨0, _⟩ => exact (rhs_row _ _).trans hk
    | ⟨1, _⟩ => exact rhs_col _ _)
  show h (dot_S5000x32_S32x16_S5000x16_1_0_0_1_n_n.lhsIdx i _) * w (dot_S5000x32_S32x16_S5000x16_1_0_0_1_n_n.rhsIdx i _) = _
  rw [el, er]

end Cert.KernelIdeal.Product1

end
-- ==== Proof.Region1.lean ====
/-
  The output array of the second pallas_call, as one function of the arrays the call finds at its entry.
  The call walks 20 grid points; point t loads rows 5000·t … 5000·t + 4999 of the hidden activations (all 32
  columns) and the whole 32×16 weight matrix, and writes back rows 5000·t … 5000·t + 4999 of the output. At entry
  (r, c) of its block it writes the sum over k of hidden (5000·t + r, k) · weight (k, c), which is entry
  (5000·t + r, c) of the plain matrix product of the two whole arrays — the reference's dot_general of them.
  The 20 row blocks tile the 100000 rows, so after the call the output array IS that product.
  Here the left operand is itself computed (it is not an argument of the program), so the reference's product is
  first read at an entry for ANY two operands.
-/
import proofs.«111960_j74251394613508_1_alg».proof.Proof.Gen.KernelIdeal.Frame
import proofs.«111960_j74251394613508_1_alg».proof.Proof.Product1
import proofs.«111960_j74251394613508_1_alg».proof.Proof.RefRead
import Idealize.ShloMosaic.Lib.Pipeline.Value

set_option maxRecDepth 16384

noncomputable section

namespace Cert.KernelIdeal.Region1

open Cert.KernelIdeal Cert.KernelIdeal.Gen Cert.ReferenceIdeal.ReadP
open Idealize.ShloMosaic Idealize.ShloMosaic.TcCoe Idealize.SL.Sem
open Idealize.ShloMosaic.Pipeline (Dat Cfg Window)

/-- The reference's second product of any hidden activations and any weights. -/
abbrev product (H : FVec Ideal S100000x32 .f32) (W : FVec Ideal S32x16 .f32) : FVec Ideal S100000x16 .f32 :=
  Host.dotGeneral (F := Ideal) Cert.ReferenceIdeal.dot_S100000x32_S32x16_S100000x16_1_0_0_1_n_n none H W

/-- Its entry (r, c) is the sum over the 32 contracted coordinates k of H (r, k) · W (k, c). -/
theorem product_apply (H : FVec Ideal S100000x32 .f32) (W : FVec Ideal S32x16 .f32) (i : S100000x16.Idx) :
    product H W i = ∑ k : Fin 32, H (lidx_main_v48 i k) * W (ridx_main_v48 i k) := by
  show FloatOps.dotGeneral (F := Ideal) Cert.ReferenceIdeal.dot_S100000x32_S32x16_S100000x16_1_0_0_1_n_n none _ H W i = _
  rw [Ideal.dotGeneral_apply, ← Equiv.sum_comp (ValueIdx.contrEquiv1 Cert.ReferenceIdeal.dot_S100000x32_S32x16_S100000x16_1_0_0_1_n_n 32 rfl rfl).symm]
  refine Finset.sum_congr rfl fun k _ => ?_
  have hk := ValueIdx.contrEquiv1_symm_val Cert.ReferenceIdeal.dot_S100000x32_S32x16_S100000x16_1_0_0_1_n_n 32 rfl rfl k
  have el : Cert.ReferenceIdeal.dot_S100000x32_S32x16_S100000x16_1_0_0_1_n_n.lhsIdx i ((ValueIdx.contrEquiv1 Cert.ReferenceIdeal.dot_S100000x32_S32x16_S100000x16_1_0_0_1_n_n 32 rfl rfl).symm k) = lidx_main_v48 i k := funext fun a => Fin.ext (by
    match a with
    | ⟨0, _⟩ => exact lhs_main_v48_0 _ _
    | ⟨1, _⟩ => exact (lhs_main_v48_1 _ _).trans hk)
  have er : Cert.ReferenceIdeal.dot_S100000x32_S32x16_S100000x16_1_0_0_1_n_n.rhsIdx i ((ValueIdx.contrEquiv1 Cert.ReferenceIdeal.dot_S100000x32_S32x16_S100000x16_1_0_0_1_n_n 32 rfl rfl).symm k) = ridx_main_v48 i k := funext fun a => Fin.ext (by
    match a with
    | ⟨0, _⟩ => exact (rhs_main_v48_0 _ _).trans hk
    | ⟨1, _⟩ => exact rhs_main_v48_1 _ _)
  rw [el, er]

-- the arrays as the call finds them: any contents
variable (V : (c : Dev nD) → (b : Ref sig .tc) → Buf (Elt Ideal) ((c : Thread nD τ).loc b))

/-- The two operands as the call finds them, and their blocks at point t, each at its literal type. -/
abbrev hidden (c : Dev nD) : Vec Ideal S100000x32 .f32 := V c main_v47
abbrev weight (c : Dev nD) : Vec Ideal S32x16 .f32 := V c main_arg4
abbrev hiddenBlock (c : Dev nD) (t : Fin cfg1.N) : Vec Ideal S5000x32 .f32 := iblk1 V c 0 t
abbrev weightBlock (c : Dev nD) (t : Fin cfg1.N) : Vec Ideal S32x16 .f32 := iblk1 V c 1 t

/-- A block's entry is the array's entry at the block's place. -/
theorem hiddenBlock_apply (c : Dev nD) (t : Fin cfg1.N) (j : S5000x32.Idx) :
    hiddenBlock V c t j = hidden V c (((cfg1.win 0).blk t).view.emb j) := rfl
theorem weightBlock_apply (c : Dev nD) (t : Fin cfg1.N) (j : S32x16.Idx) :
    weightBlock V c t j = weight V c (((cfg1.win 1).blk t).view.emb j) := rfl

theorem origin : (![0, 0] : Fin 2 → Nat) = fun _ => 0 := funext fun a => by fin_cases a <;> rfl

/-- Where each window's block sits at point t: the hidden activations' and the output's at row block t, column
    block 0; the weight matrix's always at block (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is its block of the product of the two whole arrays. -/
theorem written_back (c : Dev nD) (t : Fin cfg1.N) :
    (dat1 V c).flushed 2 t
      = ((cfg1.win 2).blk t).view.read (Elt Ideal) (product (hidden V c) (weight V c)) := by
  show (cfg1.win 2).cut (grid1.coords t) ((dat1 V c).after 2 t) = _
  rw [after1_2]
  unfold out1_2
  rw [View.canon_unit_zero origin]
  simp only [View.ld_unit_zero (S := S5000x32) origin, View.ld_unit_zero (S := S32x16) origin]
  obtain ⟨e0, e1, e2, e3, e4, e5⟩ := block_indices t
  funext y
  show k1_pay1 (F := Ideal) (hiddenBlock V c t) (weightBlock V c t) y
      = product (hidden V c) (weight V c) (((cfg1.win 2).blk t).view.emb y)
  rw [Product1.stored_apply, product_apply]
  refine Finset.sum_congr rfl fun k _ => ?_
  rw [hiddenBlock_apply, weightBlock_apply]
  have hl : ((cfg1.win 0).blk t).view.emb (Product1.leftAt y k) = lidx_main_v48 (((cfg1.win 2).blk t).view.emb y) k := by
    funext a; apply Fin.ext
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 32 + 1 * k.val = k.val; omega
  have hr : ((cfg1.win 1).blk t).view.emb (Product1.rightAt y k) = ridx_main_v48 (((cfg1.win 2).blk t).view.emb y) k := by
    funext a; apply Fin.ext
    match a with
    | ⟨0, _⟩ => show win1_1.index t (0 : Fin 2) * 32 + 1 * k.val = k.val; omega
    | ⟨1, _⟩ => show win1_1.index t (1 : Fin 2) * 16 + 1 * (y 1).val = win1_2.index t (1 : Fin 2) * 16 + 1 * (y 1).val; omega
  rw [hl, hr]

/-- An entry of the output array lies in point t's block iff each coordinate is in the block's range on its axis. -/
theorem mem_block (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v48).slice (win1_2.rect t)).set ↔ _
  rw [View.set_slice_whole, Rect.mem_set_unit]
  exact Iff.rfl

/-- Every entry of the output array is in the block of the point its row falls to, row / 5000. -/
theorem covered (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1, e2, e3, e4, e5⟩ := block_indices t
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 16 ≤ (i 1).val ∧ (i 1).val < win1_2.index t (1 : Fin 2) * 16 + 16; omega

/-- After the call the output array is the product of the two arrays the call found. -/
theorem output_array (c : Dev nD) :
    (dat1 V c).arrAt 2 cfg1.N = product (hidden V c) (weight V c) :=
  (dat1 V c).arrAt_eq_of_cover 2 _ (fun t _ => written_back V c t) covered

end Cert.KernelIdeal.Region1

end
-- ==== Proof.Boundaries.lean ====
/-
  The buffer contents of the kernel program at its segment boundaries, as the reference's stages of the arguments.
  The kernel program is: host operations, the first pallas_call, host operations, the second pallas_call, host
  operations. Walking it boundary by boundary at the ideal values:
  at the first call's entry the source and destination index vectors and the per-edge weights are the reference's
  stages of the edge array, and the arguments are as launched; the first call's output is the product x·W1 (the
  call's blocks tile the array), every other buffer is untouched; at the second call's entry its left operand is the
  reference's hidden activations; the second call's output is their product with W2; and after the last stretch the
  result array is the reference's last stage of the six arguments.
-/
import proofs.«111960_j74251394613508_1_alg».proof.Proof.Gen.KernelIdeal.Frame
import proofs.«111960_j74251394613508_1_alg».proof.Proof.RefRead
import proofs.«111960_j74251394613508_1_alg».proof.Proof.HostStages
import proofs.«111960_j74251394613508_1_alg».proof.Proof.Region0
import proofs.«111960_j74251394613508_1_alg».proof.Proof.Region1

set_option maxRecDepth 16384

noncomputable section

namespace Cert.KernelIdeal.Boundaries

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the first call's entry -/

theorem entry0_src (c : Dev nD) : W3 m ρ c (Proc.devRef .tc main_v3) = val_main_v3 (F := Ideal) (m ((c : Thread nD τ).loc main_arg1)) :=
  (Stages.third_keep_src (W2 m ρ c)).trans ((Stages.second_keep_src (W1 m ρ c)).trans (Stages.first_src (W0 m ρ c) _ rfl))

theorem entry0_dst (c : Dev nD) : W3 m ρ c (Proc.devRef .tc main_v6) = val_main_v6 (F := Ideal) (m ((c : Thread nD τ).loc main_arg1)) :=
  (Stages.third_keep_dst (W2 m ρ c)).trans ((Stages.second_keep_dst (W1 m ρ c)).trans (Stages.first_dst (W0 m ρ c) _ rfl))

/-- The per-edge weight dinv[src] · dinv[dst]. -/
theorem entry0_weight (c : Dev nD) : W3 m ρ c (Proc.devRef .tc main_v29) = val_main_v29 (F := Ideal) (m ((c : Thread nD τ).loc main_arg1)) :=
  Stages.third_weight (W2 m ρ c) _
    (Stages.second_dinv (W1 m ρ c) _ (Stages.first_positive (W0 m ρ c) _ rfl) (Stages.first_rsqrt (W0 m ρ c) _ rfl)
      (Stages.first_zero (W0 m ρ c)))
    ((Stages.second_keep_src (W1 m ρ c)).trans (Stages.first_src (W0 m ρ c) _ rfl))
    ((Stages.second_keep_dst (W1 m ρ c)).trans (Stages.first_dst (W0 m ρ c) _ rfl))

theorem entry0_arg0 (c : Dev nD) : W3 m ρ c (Proc.devRef .tc main_arg0) = m ((c : Thread nD τ).loc main_arg0) :=
  Stages.before_keep_arg0 (W0 m ρ c)
theorem entry0_arg2 (c : Dev nD) : W3 m ρ c (Proc.devRef .tc main_arg2) = m ((c : Thread nD τ).loc main_arg2) :=
  Stages.before_keep_arg2 (W0 m ρ c)
theorem entry0_arg3 (c : Dev nD) : W3 m ρ c (Proc.devRef .tc main_arg3) = m ((c : Thread nD τ).loc main_arg3) :=
  Stages.before_keep_arg3 (W0 m ρ c)
theorem entry0_arg4 (c : Dev nD) : W3 m ρ c (Proc.devRef .tc main_arg4) = m ((c : Thread nD τ).loc main_arg4) :=
  Stages.before_keep_arg4 (W0 m ρ c)
theorem entry0_arg5 (c : Dev nD) : W3 m ρ c (Proc.devRef .tc main_arg5) = m ((c : Thread nD τ).loc main_arg5) :=
  Stages.before_keep_arg5 (W0 m ρ c)

/-! ## At the first call's exit -/

/-- The first call's output is the reference's first product. -/
theorem exit0_product (c : Dev nD) :
    W4 m ρ c (Proc.devRef .tc main_v30) = val_main_v30 (F := Ideal) (m ((c : Thread nD τ).loc main_arg0)) (m ((c : Thread nD τ).loc main_arg2)) := by
  refine (W4_arr m ρ c 2).trans ((Region0.output_array (V3 m ρ) c).trans ?_)
  show val_main_v30 (F := Ideal) (W3 m ρ c (Proc.devRef .tc main_arg0)) (W3 m ρ c (Proc.devRef .tc main_arg2)) = _
  rw [entry0_arg0, entry0_arg2]

theorem exit0_src (c : Dev nD) : W4 m ρ c (Proc.devRef .tc main_v3) = val_main_v3 (F := Ideal) (m ((c : Thread nD τ).loc main_arg1)) :=
  (W4_of_ne m ρ c main_v3 (by decide)).trans (entry0_src m ρ c)
theorem exit0_dst (c : Dev nD) : W4 m ρ c (Proc.devRef .tc main_v6) = val_main_v6 (F := Ideal) (m ((c : Thread nD τ).loc main_arg1)) :=
  (W4_of_ne m ρ c main_v6 (by decide)).trans (entry0_dst m ρ c)
theorem exit0_weight (c : Dev nD) : W4 m ρ c (Proc.devRef .tc main_v29) = val_main_v29 (F := Ideal) (m ((c : Thread nD τ).loc main_arg1)) :=
  (W4_of_ne m ρ c main_v29 (by decide)).trans (entry0_weight m ρ c)
theorem exit0_arg3 (c : Dev nD) : W4 m ρ c (Proc.devRef .tc main_arg3) = m ((c : Thread nD τ).loc main_arg3) :=
  (W4_of_ne m ρ c main_arg3 (by decide)).trans (entry0_arg3 m ρ c)
theorem exit0_arg4 (c : Dev nD) : W4 m ρ c (Proc.devRef .tc main_arg4) = m ((c : Thread nD τ).loc main_arg4) :=
  (W4_of_ne m ρ c main_arg4 (by decide)).trans (entry0_arg4 m ρ c)
theorem exit0_arg5 (c : Dev nD) : W4 m ρ c (Proc.devRef .tc main_arg5) = m ((c : Thread nD τ).loc main_arg5) :=
  (W4_of_ne m ρ c main_arg5 (by decide)).trans (entry0_arg5 m ρ c)

/-! ## At the second call's entry -/

/-- The second call's left operand: the reference's hidden activations. -/
theorem entry1_hidden (c : Dev nD) :
    W6 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) :=
  Stages.middle_hidden (W4 m ρ c) _ _ _ _ (exit0_product m ρ c) (exit0_src m ρ c) (exit0_dst m ρ c) (exit0_weight m ρ c)
    (exit0_arg3 m ρ c)

theorem entry1_src (c : Dev nD) : W6 m ρ c (Proc.devRef .tc main_v3) = val_main_v3 (F := Ideal) (m ((c : Thread nD τ).loc main_arg1)) :=
  (Stages.middle_keep_src (W4 m ρ c)).trans (exit0_src m ρ c)
theorem entry1_dst (c : Dev nD) : W6 m ρ c (Proc.devRef .tc main_v6) = val_main_v6 (F := Ideal) (m ((c : Thread nD τ).loc main_arg1)) :=
  (Stages.middle_keep_dst (W4 m ρ c)).trans (exit0_dst m ρ c)
theorem entry1_weight (c : Dev nD) : W6 m ρ c (Proc.devRef .tc main_v29) = val_main_v29 (F := Ideal) (m ((c : Thread nD τ).loc main_arg1)) :=
  (Stages.middle_keep_weight (W4 m ρ c)).trans (exit0_weight m ρ c)
theorem entry1_arg4 (c : Dev nD) : W6 m ρ c (Proc.devRef .tc main_arg4) = m ((c : Thread nD τ).loc main_arg4) :=
  (Stages.middle_keep_arg4 (W4 m ρ c)).trans (exit0_arg4 m ρ c)
theorem entry1_arg5 (c : Dev nD) : W6 m ρ c (Proc.devRef .tc main_arg5) = m ((c : Thread nD τ).loc main_arg5) :=
  (Stages.middle_keep_arg5 (W4 m ρ c)).trans (exit0_arg5 m ρ c)

/-! ## At the second call's exit -/

/-- The second call's output is the reference's second product. -/
theorem exit1_product (c : Dev nD) :
    W7 m ρ c (Proc.devRef .tc main_v48)
      = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Region1.output_array (V6 m ρ) c).trans ?_)
  show Region1.product (W6 m ρ c (Proc.devRef .tc main_v47)) (W6 m ρ c (Proc.devRef .tc main_arg4)) = _
  rw [entry1_hidden, entry1_arg4]
  rfl

theorem exit1_src (c : Dev nD) : W7 m ρ c (Proc.devRef .tc main_v3) = val_main_v3 (F := Ideal) (m ((c : Thread nD τ).loc main_arg1)) :=
  (W7_of_ne m ρ c main_v3 (by decide)).trans (entry1_src m ρ c)
theorem exit1_dst (c : Dev nD) : W7 m ρ c (Proc.devRef .tc main_v6) = val_main_v6 (F := Ideal) (m ((c : Thread nD τ).loc main_arg1)) :=
  (W7_of_ne m ρ c main_v6 (by decide)).trans (entry1_dst m ρ c)
theorem exit1_weight (c : Dev nD) : W7 m ρ c (Proc.devRef .tc main_v29) = val_main_v29 (F := Ideal) (m ((c : Thread nD τ).loc main_arg1)) :=
  (W7_of_ne m ρ c main_v29 (by decide)).trans (entry1_weight m ρ c)
theorem exit1_arg5 (c : Dev nD) : W7 m ρ c (Proc.devRef .tc main_arg5) = m ((c : Thread nD τ).loc main_arg5) :=
  (W7_of_ne m ρ c main_arg5 (by decide)).trans (entry1_arg5 m ρ c)

/-! ## The result -/

/-- After the last host operation the result array holds the reference's last stage of the six arguments. -/
theorem result (c : Dev nD) :
    W8 m ρ c (Proc.devRef .tc main_v64)
      = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Stages.tail_result (W7 m ρ c) _ _ _ _ _ _ (exit1_product m ρ c) (exit1_src m ρ c) (exit1_dst m ρ c) (exit1_weight m ρ c)
    (exit1_arg5 m ρ c)

end Cert.KernelIdeal.Boundaries

end
-- ==== Proof.RefFrame.lean ====
/-
  The reference's frame: the reference is a straight line of host operations, so every weakly fair execution
  of it terminates with each buffer at the operations' composed value of the launch contents; in particular the
  six argument arrays end as launched.
-/
import proofs.«111960_j74251394613508_1_alg».proof.Defs
import proofs.«111960_j74251394613508_1_alg».proof.Proof.Gen.ReferenceIdeal
import proofs.«111960_j74251394613508_1_alg».proof.Proof.Gen.Pre_finite_inputs
import proofs.«111960_j74251394613508_1_alg».proof.Proof.RefRun

noncomputable section

open Idealize.ShloMosaic Idealize.ShloMosaic.TcCoe Idealize.SL.Sem

namespace Cert.Proof.Reference

/-- The reference runs and leaves its arguments as launched: its run, with the result's value dropped. -/
theorem frame : Cert.frame_ReferenceIdeal := fun m ρ _ =>
  (θ_run Cert.ReferenceIdeal.defs _ _).mono (fun _ h c => (h c).2) (Cert.ReferenceIdeal.ValueP.run (F := Ideal) m ρ)

end Cert.Proof.Reference

end
-- ==== Proof.lean ====
/-
  A two-layer graph convolution: out = A (relu (A (x W1) + b1) W2) + b2, where A scatter-adds, through the
  destination indices, the rows gathered through the source indices and scaled by dinv[src] · dinv[dst] (the
  edge list with a self loop on every node, dinv the inverse square root of the degree where it is positive).
  The kernel program computes the two dense products x W1 and h W2 in pallas_calls, twenty row blocks of 5000 each,
  on the matrix unit with bf16 operands and an f32 zero accumulator; everything else is the same host operations as
  in the reference, in the same order. At the ideal values narrowing to bf16 is the identity and the matrix unit's
  product into a zero accumulator is the plain sum over the contracted coordinate, which is also what the
  reference's dot_general is; a block of rows of a product is the product of that block of rows. So both programs
  compute one function of the six arguments, with no appeal to finiteness: no law beyond reindexing a finite sum is
  used.

  The parts: the run of the idealized kernel program with its result kept at the last segment boundary's contents
  (KernelRun); each call's stored value at an entry (Product0, Product1) and, from it, each call's output array as
  the reference's product of what the call finds (Region0, Region1); the host stretches read one at a time, at any
  float family, as the reference's stages (HostStages), and put together boundary by boundary (Boundaries); the reference's run (RefRun,
  RefRead, RefFrame). The idealization rewrote nothing, so there is nothing to preserve.
-/
import proofs.«111960_j74251394613508_1_alg».proof.Defs
import proofs.«111960_j74251394613508_1_alg».proof.Proof.Gen.Kernel
import proofs.«111960_j74251394613508_1_alg».proof.Proof.Gen.Kernel.Frame
import proofs.«111960_j74251394613508_1_alg».proof.Proof.Gen.KernelIdeal
import proofs.«111960_j74251394613508_1_alg».proof.Proof.Gen.KernelIdeal.Frame
import proofs.«111960_j74251394613508_1_alg».proof.Proof.Gen.ReferenceIdeal
import proofs.«111960_j74251394613508_1_alg».proof.Proof.Gen.Pre_finite_inputs
import proofs.«111960_j74251394613508_1_alg».proof.Proof.KernelRun
import proofs.«111960_j74251394613508_1_alg».proof.Proof.Boundaries
import proofs.«111960_j74251394613508_1_alg».proof.Proof.RefFrame
import proofs.«111960_j74251394613508_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- Both idealized programs, from memories that agree on the arguments, end with the reference's last stage of
    those arguments in their result arrays. -/
theorem algebraic : Cert.algebraic_KernelIdeal_ReferenceIdeal := by
  intro m ρ m' ρ' _ hagree
  refine ⟨fun c => Cert.ReferenceIdeal.ReadP.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundaries.result m ρ c), (h c).2⟩)
      (Cert.KernelIdeal.GenRun.run_result m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v64_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, Cert.Proof.Reference.frame, trivial, algebraic⟩

end Cert.Proof

end
